-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S64 : Shape := ⟨1, ![64]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel

variable [Facts]

def fn {F : FTy → Type} [FloatOps F] (main_arg0 : FVec F S64x3x512x512 .f32) (main_arg1 : IVec S64 32) (main_arg2 : IVec S64 32) (main_arg3 : IVec S64 32) (main_arg4 : IVec S64 32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  main_v3
-- ==== Kernel.lean ====
abbrev S64x3x512x512 : Shape := ⟨4, ![64, 3, 512, 512]⟩
abbrev S64 : Shape := ⟨1, ![64]⟩
abbrev S1x3x512x512 : Shape := ⟨4, ![1, 3, 512, 512]⟩
abbrev S1 : Shape := ⟨1, ![1]⟩
abbrev S512x512 : Shape := ⟨2, ![512, 512]⟩
abbrev S1x1x512x512 : Shape := ⟨4, ![1, 1, 512, 512]⟩

abbrev nBuf : Space → Nat
  | .hbm => 2
  | .vmem => 4
  | .smem => 4
  | _ => 0

abbrev bufTy : (tb : Table) → Fin (tcTables nBuf tb) → BufTy
  | .hbm, ⟨0, _⟩ => ⟨S64x3x512x512, .f32⟩
  | .hbm, ⟨1, _⟩ => ⟨S64x3x512x512, .f32⟩
  | .local _ .vmem, ⟨0, _⟩ => ⟨S1x3x512x512, .f32⟩
  | .local _ .vmem, ⟨1, _⟩ => ⟨S1x3x512x512, .f32⟩
  | .local _ .vmem, ⟨2, _⟩ => ⟨S1x3x512x512, .f32⟩
  | .local _ .vmem, ⟨3, _⟩ => ⟨S1x3x512x512, .f32⟩
  | .local _ .smem, ⟨0, _⟩ => ⟨S64, .i32⟩
  | .local _ .smem, ⟨1, _⟩ => ⟨S64, .i32⟩
  | .local _ .smem, ⟨2, _⟩ => ⟨S64, .i32⟩
  | .local _ .smem, ⟨3, _⟩ => ⟨S64, .i32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg4 : Ref sig .tc := ⟨.smem, 0, rfl⟩
abbrev main_arg3 : Ref sig .tc := ⟨.smem, 1, rfl⟩
abbrev main_arg2 : Ref sig .tc := ⟨.smem, 2, rfl⟩
abbrev main_arg1 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

abbrev pre0 : Pipeline.Prefetch sig := ⟨4, ![main_arg4.idx, main_arg3.idx, main_arg2.idx, main_arg1.idx], fun | 0 => main_arg4.names | 1 => main_arg3.names | 2 => main_arg2.names | 3 => main_arg1.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  numel1_S1 : S1.numel = 1
  iota_S512x512_d0_w32 : S512x512.Iotas .tc 32 [0]
  iota_S512x512_d1_w32 : S512x512.Iotas .tc 32 [1]
  inb_S1x3x512x512_S1x3x512x512_0_0_0_0 : ∀ a, (![0, 0, 0, 0] : Fin 4 → Nat) a + S1x3x512x512.size a ≤ S1x3x512x512.size a
  h_S1x3x512x512 : 0 < S1x3x512x512.numel
  shapeCasts_S512x512_S1x1x512x512 : S512x512.ShapeCasts S1x1x512x512
  broadcasts_S1x1x512x512_S1x3x512x512 : S1x1x512x512.Broadcasts S1x3x512x512
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S64x3x512x512.size a
  hwx0_0 : ∀ i : grid0.Coords, EltTy.bits .f32 = 32 ∨ (Rect.block (s := S64x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512x512.size a ≤ S64x3x512x512.size a
  hwx0_1 : ∀ i : grid0.Coords, EltTy.bits .f32 = 32 ∨ (Rect.block (s := S64x3x512x512) S1x3x512x512.size (cc0_transform_1 i) (hinb0_1 i)).WholeWords (EltTy.packing .f32)

variable [Facts₀]

abbrev spec0_0 : Pipeline.WinSpec sig grid0.rank :=
  Pipeline.WinSpec.ofSpec (Memref.whole main_arg0) S1x3x512x512.size reads0_0 false false 2 stage0_0 sem0_0 nbuf0_0 hstage0_0

abbrev spec0_1 : Pipeline.WinSpec sig grid0.rank :=
  Pipeline.WinSpec.ofSpec (Memref.whole main_v0) S1x3x512x512.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S64x3x512x512 : Shape := ⟨4, ![64, 3, 512, 512]⟩
abbrev S64 : Shape := ⟨1, ![64]⟩
abbrev S512 : Shape := ⟨1, ![512]⟩
abbrev S1x512x1 : Shape := ⟨3, ![1, 512, 1]⟩
abbrev S1x1x512 : Shape := ⟨3, ![1, 1, 512]⟩
abbrev S64x1x1 : Shape := ⟨3, ![64, 1, 1]⟩
abbrev S64x512x1 : Shape := ⟨3, ![64, 512, 1]⟩
abbrev S64x1x512 : Shape := ⟨3, ![64, 1, 512]⟩
abbrev S64x512x512 : Shape := ⟨3, ![64, 512, 512]⟩
abbrev S_ : Shape := ⟨0, ![]⟩
abbrev S64x1x512x512 : Shape := ⟨4, ![64, 1, 512, 512]⟩

abbrev nBuf : Space → Nat
  | .hbm => 42
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S64, .i32⟩
  | .hbm, ⟨2, _⟩ => ⟨S64, .i32⟩
  | .hbm, ⟨3, _⟩ => ⟨S64, .i32⟩
  | .hbm, ⟨4, _⟩ => ⟨S64, .i32⟩
  | .hbm, ⟨5, _⟩ => ⟨S512, .i32⟩
  | .hbm, ⟨6, _⟩ => ⟨S1x512x1, .i32⟩
  | .hbm, ⟨7, _⟩ => ⟨S512, .i32⟩
  | .hbm, ⟨8, _⟩ => ⟨S1x1x512, .i32⟩
  | .hbm, ⟨9, _⟩ => ⟨S64x1x1, .i32⟩
  | .hbm, ⟨10, _⟩ => ⟨S64x1x1, .i32⟩
  | .hbm, ⟨11, _⟩ => ⟨S64x512x1, .i32⟩
  | .hbm, ⟨12, _⟩ => ⟨S64x512x1, .i32⟩
  | .hbm, ⟨13, _⟩ => ⟨S64x512x1, .i1⟩
  | .hbm, ⟨14, _⟩ => ⟨S64x1x1, .i32⟩
  | .hbm, ⟨15, _⟩ => ⟨S64x1x1, .i32⟩
  | .hbm, ⟨16, _⟩ => ⟨S64x512x1, .i32⟩
  | .hbm, ⟨17, _⟩ => ⟨S64x512x1, .i32⟩
  | .hbm, ⟨18, _⟩ => ⟨S64x512x1, .i1⟩
  | .hbm, ⟨19, _⟩ => ⟨S64x512x1, .i1⟩
  | .hbm, ⟨20, _⟩ => ⟨S64x1x512, .i32⟩
  | .hbm, ⟨21, _⟩ => ⟨S64x1x512, .i32⟩
  | .hbm, ⟨22, _⟩ => ⟨S64x1x512, .i1⟩
  | .hbm, ⟨23, _⟩ => ⟨S64x512x512, .i1⟩
  | .hbm, ⟨24, _⟩ => ⟨S64x512x512, .i1⟩
  | .hbm, ⟨25, _⟩ => ⟨S64x512x512, .i1⟩
  | .hbm, ⟨26, _⟩ => ⟨S64x1x1, .i32⟩
  | .hbm, ⟨27, _⟩ => ⟨S64x1x1, .i32⟩
  | .hbm, ⟨28, _⟩ => ⟨S64x1x512, .i32⟩
  | .hbm, ⟨29, _⟩ => ⟨S64x1x512, .i32⟩
  | .hbm, ⟨30, _⟩ => ⟨S64x1x512, .i1⟩
  | .hbm, ⟨31, _⟩ => ⟨S64x512x512, .i1⟩
  | .hbm, ⟨32, _⟩ => ⟨S64x512x512, .i1⟩
  | .hbm, ⟨33, _⟩ => ⟨S_, .f32⟩
  | .hbm, ⟨34, _⟩ => ⟨S_, .f32⟩
  | .hbm, ⟨35, _⟩ => ⟨S64x512x512, .f32⟩
  | .hbm, ⟨36, _⟩ => ⟨S64x512x512, .f32⟩
  | .hbm, ⟨37, _⟩ => ⟨S64x512x512, .f32⟩
  | .hbm, ⟨38, _⟩ => ⟨S64x512x512, .f32⟩
  | .hbm, ⟨39, _⟩ => ⟨S64x1x512x512, .f32⟩
  | .hbm, ⟨40, _⟩ => ⟨S64x3x512x512, .f32⟩
  | .hbm, ⟨41, _⟩ => ⟨S64x3x512x512, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst : Ref sig .tc := ⟨.hbm, 33, rfl⟩
abbrev main_cst_0 : Ref sig .tc := ⟨.hbm, 34, rfl⟩
abbrev main_call0_v0 : Ref sig .tc := ⟨.hbm, 35, rfl⟩
abbrev main_call0_v1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]

class Facts₀ : Prop where
  bcast_S512_S1x512x1_1 : S512.BroadcastsInDim S1x512x1 (![1] : Fin 1 → Fin S1x512x1.rank)
  bcast_S512_S1x1x512_2 : S512.BroadcastsInDim S1x1x512 (![2] : Fin 1 → Fin S1x1x512.rank)
  bcast_S64_S64x1x1_0 : S64.BroadcastsInDim S64x1x1 (![0] : Fin 1 → Fin S64x1x1.rank)
  bcast_S1x512x1_S64x512x1_0_1_2 : S1x512x1.BroadcastsInDim S64x512x1 (![0, 1, 2] : Fin 3 → Fin S64x512x1.rank)
  bcast_S64x1x1_S64x512x1_0_1_2 : S64x1x1.BroadcastsInDim S64x512x1 (![0, 1, 2] : Fin 3 → Fin S64x512x1.rank)
  bcast_S1x1x512_S64x1x512_0_1_2 : S1x1x512.BroadcastsInDim S64x1x512 (![0, 1, 2] : Fin 3 → Fin S64x1x512.rank)
  bcast_S64x1x1_S64x1x512_0_1_2 : S64x1x1.BroadcastsInDim S64x1x512 (![0, 1, 2] : Fin 3 → Fin S64x1x512.rank)
  bcast_S64x512x1_S64x512x512_0_1_2 : S64x512x1.BroadcastsInDim S64x512x512 (![0, 1, 2] : Fin 3 → Fin S64x512x512.rank)
  bcast_S64x1x512_S64x512x512_0_1_2 : S64x1x512.BroadcastsInDim S64x512x512 (![0, 1, 2] : Fin 3 → Fin S64x512x512.rank)
  bcast_S_S64x512x512 : S_.BroadcastsInDim S64x512x512 (![] : Fin 0 → Fin S64x512x512.rank)
  bcast_S64x512x512_S64x1x512x512_0_2_3 : S64x512x512.BroadcastsInDim S64x1x512x512 (![0, 2, 3] : Fin 3 → Fin S64x1x512x512.rank)
  bcast_S64x1x512x512_S64x3x512x512_0_1_2_3 : S64x1x512x512.BroadcastsInDim S64x3x512x512 (![0, 1, 2, 3] : Fin 4 → Fin S64x3x512x512.rank)

variable [Facts₀]

class Facts : Prop extends Facts₀ where

variable [Facts]
-- ==== Proof.Spec.lean ====
/-
  Random rectangle erasing, as one function of the argument arrays.

  Image `b` of a batch of 64 three-channel 512 x 512 images is multiplied, entry by entry, by a factor that is
  `0` inside that image's rectangle and `1` outside it. The rectangle of image `b` has its top-left corner at
  row `ys b`, column `xs b`, and is `hs b` rows high and `ws b` columns wide: entry (row, col) lies inside when
  `ys b ≤ row < ys b + hs b` and `xs b ≤ col < xs b + ws b`, the comparisons signed and the two sums taken in
  32-bit two's-complement words (they wrap), exactly as both programs compute them. The factor does not depend
  on the channel.

  Nothing here depends on what a float is: the result at an index is the product of the image's entry with
  one of two constants, so the function is stated at any float instance.
-/
import Idealize.ShloMosaic.PureOps
import Idealize.ShloMosaic.Lib.ValueIdx

noncomputable section

namespace Cert.Erase

open Idealize.ShloMosaic Idealize.ShloMosaic.ValueIdx

variable {F : FTy → Type} [FloatOps F]

/-- The shape of the image batch and of each per-image table. -/
abbrev SImg : Shape := ⟨4, ![64, 3, 512, 512]⟩
abbrev STab : Shape := ⟨1, ![64]⟩

/-- The one-bit test "entry (row, col) lies in the rectangle with corner (y0, x0), height h0, width w0":
    the conjunction, in this order, of `row ≥ y0`, `row < y0 + h0`, `col ≥ x0`, `col < x0 + w0`
    (signed compares of 32-bit words; the sums wrap). -/
def inRect (y0 x0 h0 w0 : BitVec 32) (row col : Nat) : BitVec 1 :=
  IntOp.andi
    (IntOp.andi
      (IntOp.andi (IntOp.cmpi .sge (BitVec.ofNat 32 row) y0) (IntOp.cmpi .slt (BitVec.ofNat 32 row) (IntOp.addi y0 h0)))
      (IntOp.cmpi .sge (BitVec.ofNat 32 col) x0))
    (IntOp.cmpi .slt (BitVec.ofNat 32 col) (IntOp.addi x0 w0))

/-- The factor an entry is multiplied by: the float `0` inside the rectangle, the float `1` outside. -/
def keep (y0 x0 h0 w0 : BitVec 32) (row col : Nat) : F .f32 :=
  Scalar.select (inRect y0 x0 h0 w0 row col) (FloatOps.ofBits .f32 0x00000000#32) (FloatOps.ofBits .f32 0x3F800000#32)

/-- The table index of the image an entry of the batch belongs to. -/
def imgOf (i : SImg.Idx) : STab.Idx := ix1 (i 0)

/-- A table index is the image's when its one coordinate is. -/
theorem eq_imgOf (k : STab.Idx) (i : SImg.Idx) (h : (k 0).val = (i 0).val) : k = imgOf i :=
  funext fun a => by match a with | ⟨0, _⟩ => exact Fin.ext h

/-- The erased batch — the result both programs are shown to compute: entry `i`, of image `i 0`, at row `i 2`
    and column `i 3`, times that image's factor there. -/
def erased (img : FVec F SImg .f32) (ys xs hs ws : IVec STab 32) : FVec F SImg .f32 :=
  fun i => FloatOps.mulf (img i)
    (keep (ys (imgOf i)) (xs (imgOf i)) (hs (imgOf i)) (ws (imgOf i)) (i 2).val (i 3).val)

end Cert.Erase

end
-- ==== Proof.KernelValue.lean ====
/-
  The kernel computes the erased batch.

  The grid has 64 points, one image a point. At point `t` the body reads word `t` of each of the four tables
  (corner row, corner column, height, width), builds the factor on a [512, 512] tile — the row numbers and the
  column numbers compared, signed, with the corner and with corner + extent (the sums in wrapping 32-bit words),
  the four bits conjoined, `0` where the conjunction holds and `1` elsewhere —, views it as [1, 1, 512, 512],
  broadcasts it over the three channels and multiplies the fetched [1, 3, 512, 512] block of the images by it;
  one store writes the product over the whole output block.

  So entry (p, ch, r, cc) of the block is the image block's entry there times the factor at (r, cc) for the words of
  point `t` (`pay_apply`: the broadcast, the reshape and the two iotas read at an index; `word0` … `word3`: each word is
  its table's entry at the point). The input block at `t` is rectangle (t, 0, 0, 0) of the image array and the output
  block the same rectangle of the result, so what point `t` writes back is block `t` of `Cert.Erase.erased` of the
  argument arrays (`outs_eq`, `flushed_eq`); the 64 blocks cover the result (`cover`), hence the result array after the
  run is the erased batch (`final`, `run`). Every step holds at any float instance.
-/
import proofs.«415714_j40870908789026_1_alg».proof.Proof.GenP.KernelIdeal.Frame
import proofs.«415714_j40870908789026_1_alg».proof.Proof.Spec
import Idealize.ShloMosaic.Lib.Pipeline.Value

set_option maxRecDepth 16384

noncomputable section

namespace Cert.KernelIdeal.KValue

open Cert.KernelIdeal Cert.KernelIdeal.Gen Cert.KernelIdeal.GenP Cert.Erase
open Idealize.ShloMosaic Idealize.ShloMosaic.TcCoe Idealize.ShloMosaic.ValueIdx Idealize.SL.Sem
open Idealize.ShloMosaic.Pipeline (Dat)

variable {F : FTy → Type} [FloatOps F]

/-! ## The body's product at an index of the block -/

theorem hz : (![0, 0, 0, 0] : Fin S1x3x512x512.rank → Nat) = fun _ => 0 := by decide

/-- The [512, 512] factor the body builds from the four words, at (r, c). -/
theorem factor_apply (v1 v3 v5 v7 : BitVec 32) (h0 : S512x512.Iotas .tc 32 [0]) (h1 : S512x512.Iotas .tc 32 [1]) (r c : Fin 512) :
    select (andi (andi (andi (cmpi .sge (iota .tc S512x512 32 [0] h0) (broadcast S512x512 v1))
        (cmpi .slt (iota .tc S512x512 32 [0] h0) (broadcast S512x512 (Scalar.addi v1 v5))))
        (cmpi .sge (iota .tc S512x512 32 [1] h1) (broadcast S512x512 v3)))
        (cmpi .slt (iota .tc S512x512 32 [1] h1) (broadcast S512x512 (Scalar.addi v3 v7))))
      (broadcast S512x512 (Scalar.ofBits (F := F) .f32 0x00000000#32)) (broadcast S512x512 (Scalar.ofBits (F := F) .f32 0x3F800000#32)) (ix2 r c)
      = keep (F := F) v1 v3 v5 v7 r.val c.val := by
  simp only [select, andi, cmpi, broadcast]
  rw [iota_single_apply .tc S512x512 32 0 h0, iota_single_apply .tc S512x512 32 1 h1]
  rfl

/-- The body's stored value at (p, ch, r, c) of the block: the loaded entry times the factor at (r, c). -/
theorem pay_apply (v1 v3 v5 v7 : BitVec 32) (x : Vec F S1x3x512x512 .f32) (p : Fin 1) (ch : Fin 3) (r c : Fin 512) :
    k0_pay1 v1 v3 v5 v7 x (ix4 p ch r c) = FloatOps.mulf (x (ix4 p ch r c)) (keep v1 v3 v5 v7 r.val c.val) := by
  unfold k0_pay1
  dsimp only
  refine congrArg (FloatOps.mulf (x (ix4 p ch r c))) ?_
  refine (broadcastTo_apply _ _ (ix4 p ch r c) (ix4 (0 : Fin 1) (0 : Fin 1) r c) (fun a => ?_)).trans ?_
  · match a with
    | ⟨0, _⟩ => show 0 = if (1 : Nat) = 1 then 0 else _; rw [if_pos rfl]
    | ⟨1, _⟩ => show 0 = if (1 : Nat) = 1 then 0 else _; rw [if_pos rfl]
    | ⟨2, _⟩ => show r.val = if (512 : Nat) = 1 then 0 else r.val; rw [if_neg (by decide)]
    | ⟨3, _⟩ => show c.val = if (512 : Nat) = 1 then 0 else c.val; rw [if_neg (by decide)]
  refine (shapeCast_apply _ _ (ix4 (0 : Fin 1) (0 : Fin 1) r c) (ix2 r c) ?_).trans ?_
  · rw [Shape.rowMajor_val_two, Shape.rowMajor_val_four]
    show r.val * 512 + c.val = ((0 * 1 + 0) * 512 + r.val) * 512 + c.val
    omega
  exact factor_apply v1 v3 v5 v7 _ _ r c

/-! ## The four words the body reads -/

/-- A grid coordinate, as the 32-bit word the body indexes the tables with, is itself. -/
theorem off_eq (i : grid0.Coords) : k0_off1 i 0 = (i 0).val := by
  show (BitVec.ofNat 32 (i 0).val).toNat = (i 0).val
  have h : (i 0).val < 64 := (i 0).isLt
  rw [BitVec.toNat_ofNat]
  exact Nat.mod_eq_of_lt (by omega)

/-- Each word is its table's entry at the grid point: the body reads table `j` through the one-element
    rectangle at the point's coordinate. -/
theorem word0 (c : Dev nD) (i : grid0.Coords) (xt : TbBuf0 (F := F) c tbM0_0) (k : S64.Idx) (hk : (k 0).val = (i 0).val) :
    kernelRun0_A.sl.r c i xt = xt k := by
  unfold kernelRun0_A.sl.r
  show xt _ = xt k
  congr 1
  funext a; apply Fin.ext
  match a with
  | ⟨0, _⟩ =>
    show k0_off1 i 0 + 1 * 0 = (k 0).val
    rw [off_eq]; omega

theorem word1 (c : Dev nD) (i : grid0.Coords) (xt : TbBuf0 (F := F) c tbM0_1) (k : S64.Idx) (hk : (k 0).val = (i 0).val) :
    kernelRun0_A.sl.r_1 c i xt = xt k := by
  unfold kernelRun0_A.sl.r_1
  show xt _ = xt k
  congr 1
  funext a; apply Fin.ext
  match a with
  | ⟨0, _⟩ =>
    show k0_off1 i 0 + 1 * 0 = (k 0).val
    rw [off_eq]; omega

theorem word2 (c : Dev nD) (i : grid0.Coords) (xt : TbBuf0 (F := F) c tbM0_2) (k : S64.Idx) (hk : (k 0).val = (i 0).val) :
    kernelRun0_A.sl.r_2 c i xt = xt k := by
  unfold kernelRun0_A.sl.r_2
  show xt _ = xt k
  congr 1
  funext a; apply Fin.ext
  match a with
  | ⟨0, _⟩ =>
    show k0_off1 i 0 + 1 * 0 = (k 0).val
    rw [off_eq]; omega

theorem word3 (c : Dev nD) (i : grid0.Coords) (xt : TbBuf0 (F := F) c tbM0_3) (k : S64.Idx) (hk : (k 0).val = (i 0).val) :
    kernelRun0_A.sl.r_3 c i xt = xt k := by
  unfold kernelRun0_A.sl.r_3
  show xt _ = xt k
  congr 1
  funext a; apply Fin.ext
  match a with
  | ⟨0, _⟩ =>
    show k0_off1 i 0 + 1 * 0 = (k 0).val
    rw [off_eq]; omega

/-! ## What the body leaves in the output block -/

/-- The one store covers the block, so the block holds its payload: the product, over the four words read off the
    tables and the input block as loaded. -/
theorem out_eq_pay (c : Dev nD) (i : grid0.Coords) (arg5 : Memref sig .tc .vmem S1x3x512x512 .f32) (harg5 : arg5.IsWhole) (arg6 : Memref sig .tc .vmem S1x3x512x512 .f32) (harg6 : arg6.IsWhole)
    (x0 : Vec F S1x3x512x512 .f32) (xt0 : TbBuf0 (F := F) c tbM0_0) (xt1 : TbBuf0 (F := F) c tbM0_1) (xt2 : TbBuf0 (F := F) c tbM0_2) (xt3 : TbBuf0 (F := F) c tbM0_3) :
    out0_A_1 c i arg5 harg5 arg6 harg6 x0 xt0 xt1 xt2 xt3
      = k0_pay1 (kernelRun0_A.sl.r c i xt0) (kernelRun0_A.sl.r_1 c i xt1) (kernelRun0_A.sl.r_2 c i xt2) (kernelRun0_A.sl.r_3 c i xt3) x0 := by
  unfold out0_A_1
  rw [View.read_writes_eq_canon _ _ _ (cover0_A_1 c i arg5 harg5 arg6 harg6 x0 xt0 xt1 xt2 xt3)]
  unfold kernelRun0_A
  dsimp only
  rw [View.canon_unit_zero hz]
  simp only [View.readAt_eq_ld, harg5.read_unread, View.ld_unit_zero (S := S1x3x512x512) hz]

variable (m : (ℓ : Loc nD τ sig) → Buf (Elt F) ℓ) (ρ : Dev nD → PrngReg)

/-- At point `t`, entry (p, ch, r, cc) of the output block: the input block's entry times the factor at (r, cc) of the
    image whose table entries are read at `k`, for any table index `k` that is the point's. -/
theorem outs_apply (hO : Ok m) (c : Dev nD) (t : Fin (cfgM m hO).N) (p : Fin 1) (ch : Fin 3) (r cc : Fin 512)
    (k : S64.Idx) (hk : (k 0).val = (grid0.coords t 0).val) :
    outsAt0 m hO c t (ix4 p ch r cc)
      = FloatOps.mulf (iblk m hO c 0 t (ix4 p ch r cc)) (keep (tbl m 0 k) (tbl m 1 k) (tbl m 2 k) (tbl m 3 k) r.val cc.val) := by
  unfold outsAt0
  refine (congrFun (out_eq_pay (F := F) c (grid0.coords t) (ms0_0 m hO t) (hs0_0 m hO t) (ms0_1 m hO t) (hs0_1 m hO t) (iblk m hO c 0 t) (tbl m 0) (tbl m 1) (tbl m 2) (tbl m 3)) (ix4 p ch r cc)).trans ?_
  rw [word0 c (grid0.coords t) (tbl m 0) k hk, word1 c (grid0.coords t) (tbl m 1) k hk, word2 c (grid0.coords t) (tbl m 2) k hk, word3 c (grid0.coords t) (tbl m 3) k hk]
  exact pay_apply (tbl m 0 k) (tbl m 1 k) (tbl m 2 k) (tbl m 3 k) (iblk m hO c 0 t) p ch r cc

theorem outs_apply' (hO : Ok m) (c : Dev nD) (t : Fin (cfgM m hO).N) (j : S1x3x512x512.Idx)
    (k : S64.Idx) (hk : (k 0).val = (grid0.coords t 0).val) :
    outsAt0 m hO c t j
      = FloatOps.mulf (iblk m hO c 0 t j) (keep (tbl m 0 k) (tbl m 1 k) (tbl m 2 k) (tbl m 3 k) (j 2).val (j 3).val) := by
  rw [eq_ix4 j]
  exact outs_apply m hO c t (j 0) (j 1) (j 2) (j 3) k hk

/-! ## From blocks to the array -/

/-- Both windows' index maps send grid point `i` to block (i, 0, 0, 0). -/
theorem tr0 (i : grid0.Coords) : cc0_transform_0 i = ![(i 0).val, 0, 0, 0] := by
  funext a
  match a with
  | ⟨0, _⟩ => exact off_eq i
  | ⟨1, _⟩ => rfl
  | ⟨2, _⟩ => rfl
  | ⟨3, _⟩ => rfl
theorem tr1 (i : grid0.Coords) : cc0_transform_1 i = ![(i 0).val, 0, 0, 0] := by
  funext a
  match a with
  | ⟨0, _⟩ => exact off_eq i
  | ⟨1, _⟩ => rfl
  | ⟨2, _⟩ => rfl
  | ⟨3, _⟩ => rfl

/-- The erased batch of the argument arrays on core `c`. -/
abbrev G (c : Dev nD) : FVec F SImg .f32 :=
  erased (m ((c : Thread nD τ).loc main_arg0)) (m ((c : Thread nD τ).loc main_arg4)) (m ((c : Thread nD τ).loc main_arg3))
    (m ((c : Thread nD τ).loc main_arg2)) (m ((c : Thread nD τ).loc main_arg1))

/-- At point `t` the body leaves block `t` of the erased batch: entry `y` of the block is entry (t, y 1, y 2, y 3) of
    the array, whose image is `t`. -/
theorem outs_eq (hO : Ok m) (c : Dev nD) (t : Fin (cfgM m hO).N) (y : S1x3x512x512.Idx) :
    outsAt0 m hO c t y = G m c ((((cfgM m hO).win 1).blk t).view.emb y) := by
  obtain ⟨i, hi⟩ : ∃ i : SImg.Idx, i = (((cfgM m hO).win 1).blk t).view.emb y := ⟨_, rfl⟩
  rw [← hi]
  have hy0 : (y 0).val = 0 := by
    have h : (y 0).val < 1 := (y 0).isLt
    omega
  have hi0 : (i 0).val = (grid0.coords t 0).val := by
    rw [hi]; show cc0_transform_1 (grid0.coords t) 0 * 1 + 1 * (y 0).val = _
    rw [tr1, hy0]; show (grid0.coords t 0).val * 1 + 1 * 0 = _; omega
  have hi2 : (i 2).val = (y 2).val := by
    rw [hi]; show cc0_transform_1 (grid0.coords t) 2 * 512 + 1 * (y 2).val = _
    rw [tr1]; show 0 * 512 + 1 * (y 2).val = _; omega
  have hi3 : (i 3).val = (y 3).val := by
    rw [hi]; show cc0_transform_1 (grid0.coords t) 3 * 512 + 1 * (y 3).val = _
    rw [tr1]; show 0 * 512 + 1 * (y 3).val = _; omega
  refine (outs_apply' m hO c t y (imgOf i) hi0).trans ?_
  rw [← hi2, ← hi3]
  -- the input window's block at `t` is the same rectangle of its array as the output's
  have hb : iblk m hO c 0 t y = m ((c : Thread nD τ).loc main_arg0) i := by
    rw [hi]
    show m ((c : Thread nD τ).loc main_arg0) ((((cfgM m hO).win 0).blk t).view.emb y)
      = m ((c : Thread nD τ).loc main_arg0) ((((cfgM m hO).win 1).blk t).view.emb y)
    rfl
  -- the tables the region holds are the four integer argument arrays
  have ht0 : tbl m 0 = m ((c : Thread nD τ).loc main_arg4) := (V_pre m c 0).symm
  have ht1 : tbl m 1 = m ((c : Thread nD τ).loc main_arg3) := (V_pre m c 1).symm
  have ht2 : tbl m 2 = m ((c : Thread nD τ).loc main_arg2) := (V_pre m c 2).symm
  have ht3 : tbl m 3 = m ((c : Thread nD τ).loc main_arg1) := (V_pre m c 3).symm
  rw [hb, ht0, ht1, ht2, ht3]
  rfl

theorem flushed_eq (hO : Ok m) (c : Dev nD) (t : Fin (cfgM m hO).N) :
    (dats m hO 0 c).flushed 1 t = (((cfgM m hO).win 1).blk t).view.read (Elt F) (G m c) := by
  show ((cfgM m hO).win 1).cut (grid0.coords t) ((dats m hO 0 c).after 1 t) = _
  rw [after0_1]
  exact funext (outs_eq m hO c t)

/-- Every image is some grid point's. -/
theorem pt_onto : ∀ q : Fin 64, ∃ t : Fin grid0.N, (grid0.coords t 0).val = q.val := by decide +kernel

/-- An index of the array lies in point `t`'s block iff each coordinate lies in the block's range on its axis. -/
theorem mem_blk (hO : Ok m) (t : Fin (cfgM m hO).N) (i : SImg.Idx) :
    i ∈ (((cfgM m hO).win 1).blk t).view.set ↔ ∀ a : Fin 4, cc0_transform_1 (grid0.coords t) a * S1x3x512x512.size a ≤ (i a).val
      ∧ (i a).val < cc0_transform_1 (grid0.coords t) a * S1x3x512x512.size a + S1x3x512x512.size a := by
  have key : ∀ R : Rect main_v0.ty.shape, i ∈ ((View.whole main_v0).slice R).set ↔ i ∈ R.set := fun R => by
    rw [View.set_slice_whole]
  exact (key _).trans Rect.mem_set_unit

/-- The blocks cover the array: entry `i` is in the block of the point of its image. -/
theorem cover (hO : Ok m) (i : SImg.Idx) :
    ∃ t : Fin (cfgM m hO).N, ((cfgM m hO).win 1).flush t = true ∧ i ∈ (((cfgM m hO).win 1).blk t).view.set := by
  obtain ⟨t, ht⟩ := pt_onto ⟨(i 0).val, (i 0).isLt⟩
  refine ⟨t, flush0_1 (adm m hO) t, ?_⟩
  rw [mem_blk]
  intro a
  rw [tr1]
  have h1 : (i 1).val < 3 := (i 1).isLt
  have h2 : (i 2).val < 512 := (i 2).isLt
  have h3 : (i 3).val < 512 := (i 3).isLt
  have ht' : (grid0.coords t 0).val = (i 0).val := ht
  match a with
  | ⟨0, _⟩ => show (grid0.coords t 0).val * 1 ≤ (i 0).val ∧ (i 0).val < (grid0.coords t 0).val * 1 + 1; omega
  | ⟨1, _⟩ => show 0 * 3 ≤ (i 1).val ∧ (i 1).val < 0 * 3 + 3; omega
  | ⟨2, _⟩ => show 0 * 512 ≤ (i 2).val ∧ (i 2).val < 0 * 512 + 512; omega
  | ⟨3, _⟩ => show 0 * 512 ≤ (i 3).val ∧ (i 3).val < 0 * 512 + 512; omega

/-- The output array after the run is the erased batch. -/
theorem final (hO : Ok m) (c : Dev nD) : (dats m hO 0 c).arrAt 1 (cfgM m hO).N = G m c :=
  (dats m hO 0 c).arrAt_eq_of_cover 1 (G m c) (fun t _ => flushed_eq m hO c t) (cover m hO)

/-- The kernel's run with its result named: every weakly fair execution terminates with the output array at the
    erased batch of the arguments and the arguments unchanged. -/
theorem run (hO : Ok m) :
    θ_run defs (onTc (τ := τ) (main (F := F))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun _ h c => ?_) (run_main m ρ hO)
  exact ⟨((h c).1 1).trans (final m hO c),
    ((h c).1 0).trans (((dats m hO 0 c).arrAt_in 0 rfl _).trans ((A_eq m hO c 0).trans (V_main_arg0 m c))),
    ((h c).2 main_arg1 (by decide : main_arg1 ∈ Pipeline.restRefs sig spec0)).trans (V_main_arg1 m c),
    ((h c).2 main_arg2 (by decide : main_arg2 ∈ Pipeline.restRefs sig spec0)).trans (V_main_arg2 m c),
    ((h c).2 main_arg3 (by decide : main_arg3 ∈ Pipeline.restRefs sig spec0)).trans (V_main_arg3 m c),
    ((h c).2 main_arg4 (by decide : main_arg4 ∈ Pipeline.restRefs sig spec0)).trans (V_main_arg4 m c)⟩

end Cert.KernelIdeal.KValue

end
-- ==== Proof.RefValue.lean ====
/-
  The reference computes the erased batch.

  The reference builds the rectangle test from broadcasts: the row numbers along one axis, the column numbers
  along another, each image's corner and extent along the batch axis, compared and conjoined at full size,
  turned into the factor `0` / `1` and broadcast over the three channels before the product with the images.
  Read at an index `i` every broadcast looks its operand up at the coordinates of `i` it keeps, so the value
  at `i` is the image's entry times the factor of image `i 0` at row `i 2`, column `i 3`: the function
  `Cert.Erase.erased` of the five argument arrays (the tables in the order corner row, corner column, height,
  width, which are the reference's arguments 4, 3, 2, 1).
-/
import proofs.«415714_j40870908789026_1_alg».proof.Proof.Gen.ReferenceIdeal.Run
import proofs.«415714_j40870908789026_1_alg».proof.Proof.Gen.ReferenceIdeal.Read
import proofs.«415714_j40870908789026_1_alg».proof.Proof.Spec

noncomputable section

namespace Cert.ReferenceIdeal.RefValue

open Cert.ReferenceIdeal Cert.ReferenceIdeal.Read Cert.Erase Idealize.ShloMosaic Idealize.ShloMosaic.ValueIdx

variable {F : FTy → Type} [FloatOps F]

/-- The last stage of the reference, as a function of the five arguments, is the erased batch. -/
theorem stage_eq_erased (x0 : FVec F S64x3x512x512 .f32) (x1 x2 x3 x4 : IVec S64 32) :
    val_main_v32 (F := F) x0 x1 x2 x3 x4 = erased x0 x4 x3 x2 x1 := by
  funext i
  -- every table is looked up at the image of `i`, whichever chain of broadcasts leads to it
  have k1 : idx_main_v4 (idx_main_v7 (idx_main_v18 (idx_main_v30 (idx_main_v31 i)))) = imgOf i := eq_imgOf _ i rfl
  have k2 : idx_main_v4 (idx_main_v12 (idx_main_v18 (idx_main_v30 (idx_main_v31 i)))) = imgOf i := eq_imgOf _ i rfl
  have k3 : idx_main_v9 (idx_main_v12 (idx_main_v18 (idx_main_v30 (idx_main_v31 i)))) = imgOf i := eq_imgOf _ i rfl
  have k4 : idx_main_v5 (idx_main_v16 (idx_main_v19 (idx_main_v30 (idx_main_v31 i)))) = imgOf i := eq_imgOf _ i rfl
  have k5 : idx_main_v5 (idx_main_v24 (idx_main_v26 (idx_main_v30 (idx_main_v31 i)))) = imgOf i := eq_imgOf _ i rfl
  have k6 : idx_main_v21 (idx_main_v24 (idx_main_v26 (idx_main_v30 (idx_main_v31 i)))) = imgOf i := eq_imgOf _ i rfl
  simp only [val_main_v32_apply, val_main_v31_apply, val_main_v30_apply, val_main_v29_apply, val_main_v28_apply,
    val_main_call0_v0_apply, val_main_call0_v1_apply, val_main_cst_apply, val_main_cst_0_apply,
    val_main_v27_apply, val_main_v26_apply, val_main_v25_apply, val_main_v24_apply, val_main_v23_apply, val_main_v22_apply,
    val_main_v21_apply, val_main_v20_apply, val_main_v19_apply, val_main_v18_apply, val_main_v17_apply, val_main_v16_apply,
    val_main_v15_apply, val_main_v14_apply, val_main_v13_apply, val_main_v12_apply, val_main_v11_apply, val_main_v10_apply,
    val_main_v9_apply, val_main_v8_apply, val_main_v7_apply, val_main_v6_apply, val_main_v5_apply, val_main_v4_apply,
    val_main_v3_apply, val_main_v2_apply, val_main_v1_apply, val_main_v0_apply, k1, k2, k3, k4, k5, k6]
  unfold erased keep inRect
  rfl

end Cert.ReferenceIdeal.RefValue

end
-- ==== Proof.lean ====
/-
  Random rectangle erasing: a pipelined kernel against its jnp reference, equal over the extended reals.

  Both programs multiply image `b` of a batch of 64 three-channel 512 x 512 images, entry by entry, by a factor
  that is `0` inside the image's rectangle and `1` outside (`Cert.Erase.erased`, Proof/Spec.lean): the rectangle's
  corner, height and width are entry `b` of four integer tables, and an entry (row, col) is inside when
  `ys b ≤ row < ys b + hs b` and `xs b ≤ col < xs b + ws b`, signed, the sums in wrapping 32-bit words.

  The kernel walks a grid of 64 points, one image a point: at point `t` it reads word `t` of each table (held in
  scalar memory for the whole call), builds the [512, 512] factor from two iotas and four compares, broadcasts it
  over the three channels, multiplies the fetched image block by it and stores the product as the output block
  (Proof/KernelValue.lean: the product at an index of the block; the block as block `t` of the erased batch; the
  blocks cover the array). The index maps do not read the tables, so the tables' side condition is empty and the
  frames hold for any integer contents. The reference builds the same test at full size from broadcasts of the
  row and column numbers and of the tables along the batch axis (Proof/RefValue.lean: its last stage read at an
  index). The two sides spell the same conjunction of the same four compares and the same product, so nothing about
  the floats is used: the equality holds at any float instance, and the finiteness of the images is never opened.
  The kernel's idealization rewrote nothing, so `preserves` is `True`.
-/
import proofs.«415714_j40870908789026_1_alg».proof.Defs
import proofs.«415714_j40870908789026_1_alg».proof.Proof.Gen.Kernel
import proofs.«415714_j40870908789026_1_alg».proof.Proof.Gen.KernelIdeal
import proofs.«415714_j40870908789026_1_alg».proof.Proof.Gen.ReferenceIdeal
import proofs.«415714_j40870908789026_1_alg».proof.Proof.Gen.Pre_finite_inputs
import proofs.«415714_j40870908789026_1_alg».proof.Proof.GenP.Kernel.Frame
import proofs.«415714_j40870908789026_1_alg».proof.Proof.GenP.KernelIdeal.Frame
import proofs.«415714_j40870908789026_1_alg».proof.Proof.Gen.ReferenceIdeal.Run
import proofs.«415714_j40870908789026_1_alg».proof.Proof.Gen.ReferenceIdeal.Read
import proofs.«415714_j40870908789026_1_alg».proof.Proof.KernelValue
import proofs.«415714_j40870908789026_1_alg».proof.Proof.RefValue
import Idealize.ShloMosaic.Adequacy
import Idealize.ShloMosaic.Init

noncomputable section

namespace Cert.Proof

open Idealize.ShloMosaic Idealize.ShloMosaic.TcCoe Idealize.SL.Sem

/-- No index map reads a table, so the tables' side condition asks nothing (of the word-level program) -/
theorem ok_kernel (m : (ℓ : Loc Cert.Kernel.nD Cert.Kernel.τ Cert.Kernel.sig) → Buf (Elt Bits) ℓ) : Cert.Kernel.GenP.Ok m := by
  show Cert.Kernel.ok0 _
  unfold Cert.Kernel.ok0
  trivial

/-- (and of the idealized one). -/
theorem ok_ideal (m : (ℓ : Loc Cert.KernelIdeal.nD Cert.KernelIdeal.τ Cert.KernelIdeal.sig) → Buf (Elt Ideal) ℓ) : Cert.KernelIdeal.GenP.Ok m := by
  show Cert.KernelIdeal.ok0 _
  unfold Cert.KernelIdeal.ok0
  trivial

theorem frame_k : Cert.frame_Kernel := fun m ρ _ => Cert.Kernel.GenP.frame m ρ (ok_kernel m)

theorem frame_ki : Cert.frame_KernelIdeal := fun m ρ _ => Cert.KernelIdeal.GenP.frame m ρ (ok_ideal m)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments, the kernel's output array and the reference's result both end at
    the erased batch of those arguments. -/
theorem algebraic : Cert.algebraic_KernelIdeal_ReferenceIdeal := by
  intro m ρ m' ρ' _ hagree
  refine ⟨fun c => Cert.KernelIdeal.KValue.G m c, Cert.KernelIdeal.KValue.run (F := Ideal) m ρ (ok_ideal m), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefValue.stage_eq_erased,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
